-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S32x8192 : Shape := ⟨2, ![32, 8192]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S32x8192 : S_.BroadcastsInDim S32x8192 (![] : Fin 0 → Fin S32x8192.rank)
  reducesTo_S32x8192_S_d0_1 : S32x8192.ReducesTo [0, 1] S_

variable [Facts]

def fn {F : FTy → Type} [FloatOps F] (main_arg0 : FVec F S16384x8192 .f32) (main_arg1 : FVec F S32x8192 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S32x8192 .f32 := Host.absf main_arg1
  let main_cst_0 : FVec F S_ .f32 := constant S_ .f32 0x7F800000#32
  let main_v5 : FVec F S32x8192 .f32 := broadcastInDim S32x8192 ![] bcast_S_S32x8192 main_cst_0
  let main_v6 : IVec S32x8192 1 := cmpf .olt main_v4 main_v5
  let main_c_1 : IVec S_ 1 := constantI S_ 1 1#1
  let main_v7 : IVec S_ 1 := (fun x v => Host.reduce IntOp.andi x v reducesTo_S32x8192_S_d0_1 h_S_) main_v6 main_c_1
  let main_v8 : IVec S_ 1 := andi main_v3 main_v7
  main_v8
-- ==== Kernel.lean ====
abbrev S16384x8192 : Shape := ⟨2, ![16384, 8192]⟩
abbrev S32x8192 : Shape := ⟨2, ![32, 8192]⟩
abbrev S_ : Shape := ⟨0, ![]⟩
abbrev S128x8192 : Shape := ⟨2, ![128, 8192]⟩
abbrev S8192x128 : Shape := ⟨2, ![8192, 128]⟩
abbrev S16384x128 : Shape := ⟨2, ![16384, 128]⟩
abbrev S256x8192 : Shape := ⟨2, ![256, 8192]⟩
abbrev S256x128 : Shape := ⟨2, ![256, 128]⟩
abbrev S16384x32 : Shape := ⟨2, ![16384, 32]⟩

abbrev nBuf : Space → Nat
  | .hbm => 17
  | .vmem => 5
  | .smem => 0
  | _ => 0

abbrev bufTy : (tb : Table) → Fin (tcTables nBuf tb) → BufTy
  | .hbm, ⟨0, _⟩ => ⟨S16384x8192, .f32⟩
  | .hbm, ⟨1, _⟩ => ⟨S32x8192, .f32⟩
  | .hbm, ⟨2, _⟩ => ⟨S32x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32x8192, .f32⟩
  | .hbm, ⟨8, _⟩ => ⟨S32x8192, .f32⟩
  | .hbm, ⟨9, _⟩ => ⟨S32x8192, .f32⟩
  | .hbm, ⟨10, _⟩ => ⟨S_, .i32⟩
  | .hbm, ⟨11, _⟩ => ⟨S_, .f32⟩
  | .hbm, ⟨12, _⟩ => ⟨S128x8192, .f32⟩
  | .hbm, ⟨13, _⟩ => ⟨S128x8192, .bf16⟩
  | .hbm, ⟨14, _⟩ => ⟨S8192x128, .bf16⟩
  | .hbm, ⟨15, _⟩ => ⟨S16384x128, .f32⟩
  | .hbm, ⟨16, _⟩ => ⟨S16384x32, .f32⟩
  | .local _ .vmem, ⟨0, _⟩ => ⟨S256x8192, .f32⟩
  | .local _ .vmem, ⟨1, _⟩ => ⟨S256x8192, .f32⟩
  | .local _ .vmem, ⟨2, _⟩ => ⟨S8192x128, .bf16⟩
  | .local _ .vmem, ⟨3, _⟩ => ⟨S256x128, .f32⟩
  | .local _ .vmem, ⟨4, _⟩ => ⟨S256x128, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S32x8192_S_d0_1 : S32x8192.ReducesTo [0, 1] S_
  h_S_ : 0 < S_.numel
  bcast_S_S32x8192 : S_.BroadcastsInDim S32x8192 (![] : Fin 0 → Fin S32x8192.rank)
  pads_S32x8192_S128x8192_0960_000 : S32x8192.Pads (![0, 0] : Fin 2 → Nat) ![96, 0] ![0, 0] S128x8192
  bitsLt_bf16_f32 : FTy.bits .bf16 < FTy.bits .f32
  transposes_S128x8192_S8192x128_1_0 : S128x8192.Transposes [1, 0] S8192x128
  inb_S256x8192_S256x8192_0_0 : ∀ a, (![0, 0] : Fin 2 → Nat) a + S256x8192.size a ≤ S256x8192.size a
  h_S256x8192 : 0 < S256x8192.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x128_S256x128_0_0 : ∀ a, (![0, 0] : Fin 2 → Nat) a + S256x128.size a ≤ S256x128.size a
  h_S256x128 : 0 < S256x128.numel
  slices_S16384x128_S16384x32_0_0 : S16384x128.Slices ![0, 0] S16384x32
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S16384x8192.size a
  hwx0_0 : ∀ i : grid0.Coords, EltTy.bits .f32 = 32 ∨ (Rect.block (s := S16384x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S16384x128.size a
  hwx0_2 : ∀ i : grid0.Coords, EltTy.bits .f32 = 32 ∨ (Rect.block (s := S16384x128) S256x128.size (cc0_transform_2 i) (hinb0_2 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x8192 : Shape := ⟨2, ![16384, 8192]⟩
abbrev S32x8192 : Shape := ⟨2, ![32, 8192]⟩
abbrev S_ : Shape := ⟨0, ![]⟩
abbrev S8192x32 : Shape := ⟨2, ![8192, 32]⟩
abbrev S16384x32 : Shape := ⟨2, ![16384, 32]⟩

abbrev nBuf : Space → Nat
  | .hbm => 22
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S32x8192, .f32⟩
  | .hbm, ⟨2, _⟩ => ⟨S32x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32x8192, .f32⟩
  | .hbm, ⟨11, _⟩ => ⟨S32x8192, .f32⟩
  | .hbm, ⟨12, _⟩ => ⟨S_, .f32⟩
  | .hbm, ⟨13, _⟩ => ⟨S32x8192, .f32⟩
  | .hbm, ⟨14, _⟩ => ⟨S32x8192, .f32⟩
  | .hbm, ⟨15, _⟩ => ⟨S32x8192, .f32⟩
  | .hbm, ⟨16, _⟩ => ⟨S32x8192, .f32⟩
  | .hbm, ⟨17, _⟩ => ⟨S32x8192, .f32⟩
  | .hbm, ⟨18, _⟩ => ⟨S32x8192, .f32⟩
  | .hbm, ⟨19, _⟩ => ⟨S32x8192, .f32⟩
  | .hbm, ⟨20, _⟩ => ⟨S8192x32, .f32⟩
  | .hbm, ⟨21, _⟩ => ⟨S16384x32, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  reducesTo_S32x8192_S_d0_1 : S32x8192.ReducesTo [0, 1] S_
  h_S_ : 0 < S_.numel
  bcast_S_S32x8192 : S_.BroadcastsInDim S32x8192 (![] : Fin 0 → Fin S32x8192.rank)
  transposes_S32x8192_S8192x32_1_0 : S32x8192.Transposes [1, 0] S8192x32
  dot_S16384x8192_S8192x32_S16384x32_1_0_0_1_n_n_wf : DotDims.WF S16384x8192 S8192x32 S16384x32 [1] [0] [0] [1] [] []

variable [Facts₀]

def dot_S16384x8192_S8192x32_S16384x32_1_0_0_1_n_n : DotDims S16384x8192 S8192x32 S16384x32 where
  lhsContracting := [1]
  rhsContracting := [0]
  lhsNonContracting := [0]
  rhsNonContracting := [1]
  lhsBatch := []
  rhsBatch := []
  wf := dot_S16384x8192_S8192x32_S16384x32_1_0_0_1_n_n_wf

class Facts : Prop extends Facts₀ where

variable [Facts]
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.KernelBlock.lean ====
/-
  The kernel's body and its weight operand, index by index.

  The body multiplies a block of 256 activation rows (cast to bf16: the identity on the extended reals) by the whole
  [8192, 128] weight operand into a zero accumulator: entry `(r, q)` of the block it stores is the sum over `k` of
  the activation block at `(r, k)` times the weight operand at `(k, q)` (`pay_apply`).

  The weight operand is computed by the host lines before the call: the scaled signs `bw w = s · sign w`
  (`s` the mean of `|w|`) of shape [32, 8192], padded with 96 further rows to [128, 8192], cast to bf16 (the
  identity again) and transposed. So at `(k, o)` with `o < 32` — inside the unpadded rows — it is `bw w (o, k)`
  (`W_apply`); the padded columns `o ≥ 32` are never read by the result.
-/
import proofs.«162635_j31018253812447_1_alg».proof.Proof.Gen.KernelIdeal.Frame
import proofs.«162635_j31018253812447_1_alg».proof.Proof.LibRowDot
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.LibRowDot

variable (m : (ℓ : Loc nD τ sig) → Buf (Elt Ideal) ℓ)

/-- THE BODY'S PAYLOAD at `(r, q)`: row `r` of the activation block against column `q` of the weight operand. -/
theorem pay_apply (x0 : Vec Ideal S256x8192 .f32) (x1 : Vec Ideal S8192x128 .bf16) (j : S256x128.Idx) :
    k0_pay1 (F := Ideal) x0 x1 j = rowDot (n := 256) (d := 8192) (h := 128) x0 x1 (j 0) (j 1) := by
  unfold k0_pay1
  simp only [matmul, shapeCast_self]
  rw [Ideal.matmul_constant_zero_apply]
  exact sum_contr_eq_rowDot dot_S256x8192_S8192x128_S256x128_1_0_0_1_n_n rfl rfl rfl rfl rfl rfl _ _ j

/-- The binarised weights as the host lines compute them: the mean of `|w|` times the sign of `w`, entry by entry. -/
def bw (w : FVec Ideal S32x8192 .f32) : FVec Ideal S32x8192 .f32 :=
  mulf (F := Ideal) (broadcastInDim S32x8192 ![] bcast_S_S32x8192 (Host.divf (F := Ideal) (Host.reduceAdd (F := Ideal) (Host.absf (F := Ideal) w) (constant (F := Ideal) S_ .f32 0x00000000#32) reducesTo_S32x8192_S_d0_1 h_S_) (constant (F := Ideal) S_ .f32 0x48800000#32))) (Host.sign (F := Ideal) w)

/-- The weight operand as the region finds it: the host lines' term of the weights. -/
theorem V_main_v8 (c : Dev nD) :
    (V m c main_v8 : S8192x128.Idx → EReal) =
      transpose S8192x128 [1, 0] (truncf (F := Ideal) (φ := .f32) .bf16 (pad S128x8192 ![0, 0] ![96, 0] ![0, 0] (bw (m ((c : Thread nD τ).loc main_arg1)))
        (sitofp (F := Ideal) .f32 (constantI S_ 32 0#32)) pads_S32x8192_S128x8192_0960_000 h_S_) bitsLt_bf16_f32) transposes_S128x8192_S8192x128_1_0 := by
  dsimp only [V, V0]
  simp only [hostOps0, hostOps0_1, hostOps0_2, List.flatten_cons, List.flatten_nil, List.append_nil, List.cons_append,
    List.nil_append]
  after_results
  rfl

/-- The weight operand at `(k, o)`, `o` among the 32 unpadded columns: the binarised weight `(o, k)`. -/
theorem W_apply (c : Dev nD) (k : Fin 8192) (o : Fin 32) :
    V m c main_v8 (ix2 (n0 := 8192) (n1 := 128) k ⟨o.val, by omega⟩)
      = bw (m ((c : Thread nD τ).loc main_arg1)) (ix2 (n0 := 32) (n1 := 8192) o k) := by
  rw [V_main_v8]
  refine (transpose_apply [1, 0] _ transposes_S128x8192_S8192x128_1_0 _ (ix2 (n0 := 128) (n1 := 8192) ⟨o.val, by omega⟩ k)
    (fun b => by match b with | ⟨0, _⟩ => rfl | ⟨1, _⟩ => rfl)).trans ?_
  show pad S128x8192 ![0, 0] ![96, 0] ![0, 0] (bw (m ((c : Thread nD τ).loc main_arg1))) _ pads_S32x8192_S128x8192_0960_000 h_S_
    (ix2 (n0 := 128) (n1 := 8192) ⟨o.val, by omega⟩ k) = _
  exact pad_apply_of_inside ![0, 0] ![96, 0] ![0, 0] _ _ pads_S32x8192_S128x8192_0960_000 h_S_
    (ix2 (n0 := 128) (n1 := 8192) ⟨o.val, by omega⟩ k) (ix2 (n0 := 32) (n1 := 8192) o k)
    (fun a => by match a with
      | ⟨0, _⟩ => show o.val = 0 + o.val * (0 + 1); omega
      | ⟨1, _⟩ => show k.val = 0 + k.val * (0 + 1); omega)

end Cert.KernelIdeal.KValue

end
-- ==== Proof.KernelArray.lean ====
/-
  From the blocks to the array the kernel writes.

  Grid point `t` (of 64) takes rows `256 t … 256 t + 255` of the activations, all 8192 of their columns, and the
  whole weight operand, and writes rows `256 t … 256 t + 255` of the [16384, 128] output, all 128 columns. By
  `pay_apply` the block written is the block of ONE whole-array function, `prod`: entry `(b, q)` the sum over `k` of
  the activations at `(b, k)` times the weight operand at `(k, q)`. The 64 row blocks cover the output (row `b` is
  in block `b / 256`), so after the run the output array is `prod`.
-/
import proofs.«162635_j31018253812447_1_alg».proof.Proof.KernelBlock

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.LibRowDot
open Idealize.ShloMosaic.Pipeline (Dat Cfg Window)

variable (m : (ℓ : Loc nD τ sig) → Buf (Elt Ideal) ℓ)

/-- The activations as the call finds them, as an array of extended reals. -/
abbrev X (c : Dev nD) : S16384x8192.Idx → EReal := V m c main_arg0
/-- The weight operand as the call finds it, as an array of extended reals. -/
abbrev W (c : Dev nD) : S8192x128.Idx → EReal := V m c main_v8

/-- The padded product: the activations' row `b` against the weight operand's column `q`, over all of the output. -/
def prod (c : Dev nD) : S16384x128.Idx → EReal := fun i =>
  rowDot (n := 16384) (d := 8192) (h := 128) (X m c) (W m c) (i 0) (i 1)

theorem origin_zero : (![0, 0] : Fin 2 → Nat) = fun _ => 0 := funext fun a => by fin_cases a <;> rfl

/-- The printed index maps over the grid: the activations' and the output's row block is the point itself, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `prod`. -/
theorem flushed_eq (c : Dev nD) (t : Fin cfg0.N) :
    (dats m 0 c).flushed 2 t = ((cfg0.win 2).blk t).view.read (Elt Ideal) (prod m c) := by
  show (cfg0.win 2).cut (grid0.coords t) ((dats m 0 c).after 2 t) = _
  rw [after0_2]
  unfold out0_2
  rw [View.canon_unit_zero origin_zero]
  simp only [View.ld_unit_zero (S := S256x8192) origin_zero, View.ld_unit_zero (S := S8192x128) origin_zero]
  obtain ⟨e00, e01, e10, e11, e20, e21⟩ := idx_facts t
  funext j
  refine (pay_apply (iblk m c 0 t) (iblk m c 1 t) j).trans ?_
  show _ = prod m c (((cfg0.win 2).blk t).view.emb j)
  unfold prod rowDot
  refine Finset.sum_congr rfl fun k _ => ?_
  show X m c (((cfg0.win 0).blk t).view.emb (ix2 (n0 := 256) (n1 := 8192) (j 0) k))
      * W m c (((cfg0.win 1).blk t).view.emb (ix2 (n0 := 8192) (n1 := 128) k (j 1))) = _
  have h0 : ((cfg0.win 0).blk t).view.emb (ix2 (n0 := 256) (n1 := 8192) (j 0) k)
      = ix2 (n0 := 16384) (n1 := 8192) ((((cfg0.win 2).blk t).view.emb j) 0) k := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 8192 + 1 * k.val = k.val; omega
  have h1 : ((cfg0.win 1).blk t).view.emb (ix2 (n0 := 8192) (n1 := 128) k (j 1))
      = ix2 (n0 := 8192) (n1 := 128) k ((((cfg0.win 2).blk t).view.emb j) 1) := by
    funext a; apply Fin.ext
    match a with
    | ⟨0, _⟩ => show win0_1.index t (0 : Fin 2) * 8192 + 1 * k.val = k.val; omega
    | ⟨1, _⟩ => show win0_1.index t (1 : Fin 2) * 128 + 1 * (j 1).val = win0_2.index t (1 : Fin 2) * 128 + 1 * (j 1).val; omega
  rw [h0, h1]

/-- An index of the output is in point `t`'s block iff each coordinate is in the block's range on its axis. -/
theorem mem_blk (t : Fin cfg0.N) (i : S16384x128.Idx) :
    i ∈ ((cfg0.win 2).blk t).view.set ↔ ∀ a : Fin 2, win0_2.index t a * S256x128.size a ≤ (i a).val
      ∧ (i a).val < win0_2.index t a * S256x128.size a + S256x128.size a := by
  show i ∈ ((View.whole main_v9).slice (win0_2.rect t)).set ↔ _
  rw [View.set_slice_whole, Rect.mem_set_unit]
  exact Iff.rfl

/-- THE COVER: row `b` of the output is in the block of point `b / 256`. -/
theorem cover (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 64 := N_0
  let t : Fin cfg0.N := ⟨(i 0).val / 256, by rw [hN]; omega⟩
  obtain ⟨-, -, -, -, e20, e21⟩ := idx_facts t
  have ht : t.val = (i 0).val / 256 := rfl
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 128 ≤ (i 1).val ∧ (i 1).val < win0_2.index t (1 : Fin 2) * 128 + 128; omega

/-- THE OUTPUT ARRAY after the run is the padded product. -/
theorem final (c : Dev nD) : (dats m 0 c).arrAt 2 cfg0.N = prod m c :=
  (dats m 0 c).arrAt_eq_of_cover 2 (prod m c) (fun t _ => flushed_eq m c t) cover

end Cert.KernelIdeal.KValue

end
-- ==== Proof.SteLaw.lean ====
/-
  The forward value of a straight-through estimator, on the extended reals.

  The reference binarises a weight `w` as `(s · sign w − c) + c` with `c = min 1 (max (−1) w)` the weight clipped
  to `[−1, 1]`. Whatever `w` is (an infinity included), `c` lies between `−1` and `1`, so it is a real number, and
  subtracting and adding back a REAL number leaves every extended real unchanged (for an infinite `a` both steps
  keep the infinity; for a real `a` it is the cancellation in ℝ). Hence the reference's weight is `s · sign w`,
  the kernel's. No finiteness of the inputs is used.

  Also here: the two bit patterns of the clip's bounds as the extended reals `1` and `−1`, and the common
  specification of both programs' result, `rowsDot x B`: entry `(b, o)` is the sum over `k` of
  `x (b, k) · B (o, k)` — the activations' row `b` against the binarised weights' row `o`.
-/
import Idealize.ShloMosaic.Lib.ValueIdx
import Idealize.ShloMosaic.PureOps.Ideal
import Idealize.ShloMosaic.PureOps.IdealRules

noncomputable section

open scoped BigOperators

namespace Cert.SteLaw

open Idealize.ShloMosaic Idealize.ShloMosaic.ValueIdx

/-- Subtracting a real number and adding it back leaves an extended real unchanged. -/
theorem sub_add_cancel_coe (a : EReal) (r : ℝ) : a - (r : EReal) + (r : EReal) = a := by
  induction a using EReal.rec with
  | bot => simp
  | top => simp
  | coe x => rw [← EReal.coe_sub, ← EReal.coe_add]; exact congrArg _ (sub_add_cancel x r)

/-- The same for any `c` between `−1` and `1`: such a `c` is a real number. -/
theorem sub_add_cancel_of_bounded {a c : EReal} (hlo : (-1 : EReal) ≤ c) (hhi : c ≤ 1) : a - c + c = a := by
  have htop : c ≠ ⊤ := by
    rintro rfl
    exact absurd hhi (not_le.mpr (by rw [← EReal.coe_one]; exact EReal.coe_lt_top 1))
  have hbot : c ≠ ⊥ := by
    rintro rfl
    exact absurd hlo (not_le.mpr (by rw [← EReal.coe_one, ← EReal.coe_neg]; exact EReal.bot_lt_coe _))
  rw [← EReal.coe_toReal htop hbot]
  exact sub_add_cancel_coe a _

/-- THE LAW: with `c` the clip of `w` to `[−1, 1]`, `(a − c) + c = a` for every `a` and every `w`. -/
theorem clip_cancel (a w : EReal) : a - min 1 (max (-1) w) + min 1 (max (-1) w) = a :=
  sub_add_cancel_of_bounded (le_min (by rw [← EReal.coe_one, ← EReal.coe_neg]; exact EReal.coe_le_coe_iff.mpr (by norm_num)) (le_max_left _ _)) (min_le_left _ _)

/-- The f32 pattern of `1.0` is the extended real `1`. -/
theorem one_f32 : Ideal.ofBits .f32 0x3F800000#32 = 1 := IdealRules.sign_bit.ideal_onePat .f32
/-- The f32 pattern of `−1.0` is the extended real `−1`. -/
theorem negOne_f32 : Ideal.ofBits .f32 0xBF800000#32 = -1 := IdealRules.sign_bit.ideal_negOnePat .f32

/-- THE SPECIFICATION: activations `x : [16384, 8192]` against weights `B : [32, 8192]`, entry `(b, o)` the sum
    over `k` of `x (b, k) · B (o, k)`. -/
def rowsDot (x : (⟨2, ![16384, 8192]⟩ : Shape).Idx → EReal) (B : (⟨2, ![32, 8192]⟩ : Shape).Idx → EReal) :
    (⟨2, ![16384, 32]⟩ : Shape).Idx → EReal :=
  fun i => ∑ k : Fin 8192, x (ix2 (n0 := 16384) (n1 := 8192) (i 0) k) * B (ix2 (n0 := 32) (n1 := 8192) (i 1) k)

end Cert.SteLaw

end
-- ==== Proof.KernelRun.lean ====
/-
  The kernel's result.

  After the call the host keeps the first 32 of the output's 128 columns. Entry `(b, o)` of the result is therefore
  the padded product at `(b, o)`, `o < 32`: the sum over `k` of the activations at `(b, k)` times the weight operand
  at `(k, o)`, which there is the binarised weight `bw w (o, k)` (`W_apply`) — the specification `rowsDot x (bw w)`.
  The run is the generated frame run with this result read off its post; the arguments end as launched.
-/
import proofs.«162635_j31018253812447_1_alg».proof.Proof.KernelArray
import proofs.«162635_j31018253812447_1_alg».proof.Proof.SteLaw

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.LibRowDot Cert.SteLaw
open Idealize.ShloMosaic.Pipeline (Dat Cfg Window)

variable (m : (ℓ : Loc nD τ sig) → Buf (Elt Ideal) ℓ) (ρ : Dev nD → PrngReg)

/-- The result buffer after the host line that follows the call: the slice of the padded product. -/
theorem tail_main_v10 (c : Dev nD) :
    (Pipeline.afterTail₀ cfgs (dats m) 0 (V0 m) [hostOps1] c main_v10 : S16384x32.Idx → EReal)
      = extractStridedSlice S16384x32 ![0, 0] (prod m c) slices_S16384x128_S16384x32_0_0 := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v9)
      = prod m c :=
    (Pipeline.withArrays_arr spec0 launch0.win.arr_inj c (V0 m c) (fun w => (dats m 0 c).arrAt w cfg0.N) 2).trans (final m c)
  rw [hw]

/-- THE KERNEL IS THE SPECIFICATION: its result is the activations' rows against the binarised weights' rows. -/
theorem result_eq (c : Dev nD) :
    (Pipeline.afterTail₀ cfgs (dats m) 0 (V0 m) [hostOps1] c main_v10 : S16384x32.Idx → EReal)
      = rowsDot (m ((c : Thread nD τ).loc main_arg0)) (bw (m ((c : Thread nD τ).loc main_arg1))) := by
  refine (tail_main_v10 m c).trans ?_
  funext i
  have hi1 : (i 1).val < 32 := (i 1).isLt
  have hk : ∀ a : Fin S16384x128.rank, ((ix2 (n0 := 16384) (n1 := 128) (i 0) ⟨(i 1).val, by omega⟩ : S16384x128.Idx) a).val
      = (![0, 0] : Fin 2 → Nat) a + (i (a.cast slices_S16384x128_S16384x32_0_0.1.symm)).val := by
    intro a
    match a with
    | ⟨0, _⟩ => show (i 0).val = 0 + (i 0).val; omega
    | ⟨1, _⟩ => show (i 1).val = 0 + (i 1).val; omega
  have e := extractStridedSlice_apply (s := S16384x128) (t := S16384x32) (α := EReal) ![0, 0] (prod m c)
    slices_S16384x128_S16384x32_0_0 i (ix2 (n0 := 16384) (n1 := 128) (i 0) ⟨(i 1).val, by omega⟩) hk
  refine e.trans ?_
  unfold prod rowDot rowsDot
  refine Finset.sum_congr rfl fun k _ => ?_
  show X m c (ix2 (n0 := 16384) (n1 := 8192) (i 0) k) * W m c (ix2 (n0 := 8192) (n1 := 128) k ⟨(i 1).val, by omega⟩) = _
  have hW : W m c (ix2 (n0 := 8192) (n1 := 128) k ⟨(i 1).val, by omega⟩)
      = bw (m ((c : Thread nD τ).loc main_arg1)) (ix2 (n0 := 32) (n1 := 8192) (i 1) k) := W_apply m c k (i 1)
  have hX : X m c = m ((c : Thread nD τ).loc main_arg0) := V_main_arg0 m c
  rw [hW, hX]

/-- THE RUN, READ: every weakly fair execution of the kernel's program terminates with the result at the
    specification of the launch contents and the arguments unchanged. -/
theorem run : θ_run defs (onTc (τ := τ) (main (F := Ideal))) ⟨m, fun _ => 0, ρ⟩ fun r => ∀ c : Dev nD,
      r.2.mem ((c.tc : Thread nD τ).loc main_v10) = rowsDot (m ((c : Thread nD τ).loc main_arg0)) (bw (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v10 (Pipeline.mem_restRefs_of main_v10 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's result, index by index.

  The reference multiplies the activations by the transpose of its binarised weights. Read one operation at a
  time: the `dot_general` at `(b, o)` is the sum over `k` of `x (b, k)` times the transposed weights at `(k, o)`,
  the transpose reads the weights at `(o, k)`, and there the weight is `(s · sign w − c) + c` with `c` the clip of
  `w` to `[−1, 1]` — which is `s · sign w` on the extended reals (`SteLaw.clip_cancel`). So the result is
  `rowsDot x (s · sign w)`, where `s · sign w` is the reference's own stage `val_main_v6`.
-/
import proofs.«162635_j31018253812447_1_alg».proof.Proof.Gen.ReferenceIdeal.Read
import proofs.«162635_j31018253812447_1_alg».proof.Proof.SteLaw

noncomputable section

open scoped BigOperators

namespace Cert.ReferenceIdeal.RefValue

open Cert.ReferenceIdeal Cert.ReferenceIdeal.Read Idealize.ShloMosaic Idealize.ShloMosaic.ValueIdx Cert.SteLaw

/-- The weights after the straight-through step are the scaled signs: at every entry `(a − c) + c = a`, the clip
    `c` being a real number. -/
theorem val_main_v8_eq (w : (⟨S32x8192, .f32⟩ : BufTy).Contents (Elt Ideal)) :
    val_main_v8 (F := Ideal) w = val_main_v6 (F := Ideal) w := by
  funext i
  rw [val_main_v8_apply, val_main_v7_apply, val_main_v3_apply, val_main_call0_v4_apply, val_main_call0_v3_apply,
    val_main_cst_2_apply, val_main_call0_v2_apply, val_main_call0_v1_apply, val_main_call0_v0_apply, val_main_cst_1_apply]
  simp only [Ideal.addf_def, Ideal.subf_def, Ideal.minimumf_def, Ideal.maximumf_def, Ideal.ofBits_def, one_f32, negOne_f32]
  exact clip_cancel _ _

/-- The `dot_general`'s left operand index at `(b, o)`, `k` is `(b, k)`. -/
theorem lidx_eq (i : S16384x32.Idx) (k : Fin 8192) : lidx_main_v10 i k = ix2 (n0 := 16384) (n1 := 8192) (i 0) k :=
  funext fun a => by match a with | ⟨0, _⟩ => rfl | ⟨1, _⟩ => rfl

/-- Its right operand index `(k, o)`, through the transpose, is `(o, k)` of the weights. -/
theorem ridx_eq (i : S16384x32.Idx) (k : Fin 8192) :
    idx_main_v9 (ridx_main_v10 i k) = ix2 (n0 := 32) (n1 := 8192) (i 1) k :=
  funext fun a => by match a with | ⟨0, _⟩ => rfl | ⟨1, _⟩ => rfl

/-- THE REFERENCE IS THE SPECIFICATION: its result is the activations' rows against the scaled signs' rows. -/
theorem val_main_v10_eq_rowsDot (x : (⟨S16384x8192, .f32⟩ : BufTy).Contents (Elt Ideal))
    (w : (⟨S32x8192, .f32⟩ : BufTy).Contents (Elt Ideal)) :
    val_main_v10 (F := Ideal) x w = rowsDot x (val_main_v6 (F := Ideal) w) := by
  funext i
  rw [val_main_v10_apply]
  unfold rowsDot
  refine Finset.sum_congr rfl fun k _ => ?_
  rw [val_main_v9_apply, val_main_v8_eq, lidx_eq, ridx_eq]

end Cert.ReferenceIdeal.RefValue

end
-- ==== Proof.lean ====
/-
  A binarised linear layer: `x · (s · sign W)ᵀ` with `s` the mean of `|W|`, activations `x : [16384, 8192]`,
  weights `W : [32, 8192]`.

  The kernel computes `s · sign W` on the host, pads it to 128 rows, transposes it, multiplies 256 rows of `x` at a
  time against it on a 64-point grid, and keeps the first 32 columns. The reference computes the straight-through
  form `(s · sign W − clip W) + clip W`, `clip` to `[−1, 1]`, and multiplies `x` by its transpose in one product.

  On the extended reals both results are, at `(b, o)`, the sum over `k` of `x (b, k) · (s · sign W) (o, k)`
  (`SteLaw.rowsDot`): the kernel's by reading its blocks, their cover of the output, the slice and the padded
  transpose index by index (Proof/KernelBlock, KernelArray, KernelRun); the reference's because the clip is a real
  number in `[−1, 1]`, so subtracting it and adding it back changes nothing (Proof/SteLaw, RefValue). The casts to
  bf16 are the identity on the extended reals, and the matrix product into a zero accumulator is the host's
  contraction (Proof/LibRowDot). The precondition is never opened: the law holds at the infinities too.

  The frames of the two kernel programs are the generated ones; the reference's frame is its generated run with the
  result dropped; the idealization rewrote nothing, so `preserves` is `True`.
-/
import proofs.«162635_j31018253812447_1_alg».proof.Defs
import proofs.«162635_j31018253812447_1_alg».proof.Proof.Gen.Kernel
import proofs.«162635_j31018253812447_1_alg».proof.Proof.Gen.Kernel.Skeleton
import proofs.«162635_j31018253812447_1_alg».proof.Proof.Gen.Kernel.Launch
import proofs.«162635_j31018253812447_1_alg».proof.Proof.Gen.Kernel.Points
import proofs.«162635_j31018253812447_1_alg».proof.Proof.Gen.Kernel.Frame
import proofs.«162635_j31018253812447_1_alg».proof.Proof.Gen.KernelIdeal
import proofs.«162635_j31018253812447_1_alg».proof.Proof.Gen.KernelIdeal.Skeleton
import proofs.«162635_j31018253812447_1_alg».proof.Proof.Gen.KernelIdeal.Launch
import proofs.«162635_j31018253812447_1_alg».proof.Proof.Gen.KernelIdeal.Points
import proofs.«162635_j31018253812447_1_alg».proof.Proof.Gen.KernelIdeal.Frame
import proofs.«162635_j31018253812447_1_alg».proof.Proof.Gen.ReferenceIdeal
import proofs.«162635_j31018253812447_1_alg».proof.Proof.Gen.Pre_finite_inputs
import proofs.«162635_j31018253812447_1_alg».proof.Proof.Gen.ReferenceIdeal.Run
import proofs.«162635_j31018253812447_1_alg».proof.Proof.Gen.ReferenceIdeal.Read
import proofs.«162635_j31018253812447_1_alg».proof.Proof.KernelRun
import proofs.«162635_j31018253812447_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's host lines and the reference compute the scaled signs `s · sign W` by the same operations. -/
theorem bw_eq (w : FVec Ideal Cert.KernelIdeal.S32x8192 .f32) :
    Cert.KernelIdeal.KValue.bw w = Cert.ReferenceIdeal.Read.val_main_v6 (F := Ideal) w := rfl

/-- Both programs end with the result at `rowsDot x (s · sign W)` of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.val_main_v10_eq_rowsDot,
    (hagree c).1, (hagree c).2, ← bw_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
